-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x256 : Shape := ⟨3, ![32, 512, 256]⟩
abbrev S32x4096x64 : Shape := ⟨3, ![32, 4096, 64]⟩
abbrev S64x256 : Shape := ⟨2, ![64, 256]⟩
abbrev S_ : Shape := ⟨0, ![]⟩
abbrev S64 : Shape := ⟨1, ![64]⟩

class Facts : Prop where
  bcast_S_S32x512x256 : S_.BroadcastsInDim S32x512x256 (![] : Fin 0 → Fin S32x512x256.rank)
  reducesTo_S32x512x256_S_d0_1_2 : S32x512x256.ReducesTo [0, 1, 2] S_
  h_S_ : 0 < S_.numel
  bcast_S_S32x4096x64 : S_.BroadcastsInDim S32x4096x64 (![] : Fin 0 → Fin S32x4096x64.rank)
  reducesTo_S32x4096x64_S_d0_1_2 : S32x4096x64.ReducesTo [0, 1, 2] S_
  bcast_S_S64x256 : S_.BroadcastsInDim S64x256 (![] : Fin 0 → Fin S64x256.rank)
  reducesTo_S64x256_S_d0_1 : S64x256.ReducesTo [0, 1] S_
  reducesTo_S_S_d : S_.ReducesTo [] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S64 .f32 := Host.absf main_arg4
  let main_cst_6 : FVec F S_ .f32 := constant S_ .f32 0x7F800000#32
  let main_v19 : FVec F S64 .f32 := broadcastInDim S64 ![] bcast_S_S64 main_cst_6
  let main_v20 : IVec S64 1 := cmpf .olt main_v18 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v17 main_v21
  main_v22

def fn {F : FTy → Type} [FloatOps F] (main_arg0 : FVec F S32x512x256 .f32) (main_arg1 : FVec F S32x4096x64 .f32) (main_arg2 : FVec F S64x256 .f32) (main_arg3 : FVec F S_ .f32) (main_arg4 : FVec F S64 .f32) : IVec S_ 1 :=
  let main_v0 : FVec F S32x512x256 .f32 := Host.absf main_arg0
  let main_cst : FVec F S_ .f32 := constant S_ .f32 0x7F800000#32
  let main_v1 : FVec F S32x512x256 .f32 := broadcastInDim S32x512x256 ![] bcast_S_S32x512x256 main_cst
  let main_v2 : IVec S32x512x256 1 := cmpf .olt main_v0 main_v1
  let main_c : IVec S_ 1 := constantI S_ 1 1#1
  let main_v3 : IVec S_ 1 := (fun x v => Host.reduce IntOp.andi x v reducesTo_S32x512x256_S_d0_1_2 h_S_) main_v2 main_c
  let main_v4 : FVec F S32x4096x64 .f32 := Host.absf main_arg1
  let main_cst_0 : FVec F S_ .f32 := constant S_ .f32 0x7F800000#32
  let main_v5 : FVec F S32x4096x64 .f32 := broadcastInDim S32x4096x64 ![] bcast_S_S32x4096x64 main_cst_0
  let main_v6 : IVec S32x4096x64 1 := cmpf .olt main_v4 main_v5
  let main_c_1 : IVec S_ 1 := constantI S_ 1 1#1
  let main_v7 : IVec S_ 1 := (fun x v => Host.reduce IntOp.andi x v reducesTo_S32x4096x64_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_v13 main_v15 main_c_5
-- ==== Kernel.lean ====
abbrev S32x512x256 : Shape := ⟨3, ![32, 512, 256]⟩
abbrev S32x4096x64 : Shape := ⟨3, ![32, 4096, 64]⟩
abbrev S64x256 : Shape := ⟨2, ![64, 256]⟩
abbrev S_ : Shape := ⟨0, ![]⟩
abbrev S64 : Shape := ⟨1, ![64]⟩
abbrev S1x64 : Shape := ⟨2, ![1, 64]⟩
abbrev S32x512x4096 : Shape := ⟨3, ![32, 512, 4096]⟩
abbrev S1x512x256 : Shape := ⟨3, ![1, 512, 256]⟩
abbrev S1x4096x64 : Shape := ⟨3, ![1, 4096, 64]⟩
abbrev S1x512x4096 : Shape := ⟨3, ![1, 512, 4096]⟩
abbrev S512x256 : Shape := ⟨2, ![512, 256]⟩
abbrev S4096x64 : Shape := ⟨2, ![4096, 64]⟩
abbrev S256x64 : Shape := ⟨2, ![256, 64]⟩
abbrev S512x64 : Shape := ⟨2, ![512, 64]⟩
abbrev S64x4096 : Shape := ⟨2, ![64, 4096]⟩
abbrev S512x4096 : Shape := ⟨2, ![512, 4096]⟩

abbrev nBuf : Space → Nat
  | .hbm => 15
  | .vmem => 8
  | .smem => 0
  | _ => 0

abbrev bufTy : (tb : Table) → Fin (tcTables nBuf tb) → BufTy
  | .hbm, ⟨0, _⟩ => ⟨S32x512x256, .f32⟩
  | .hbm, ⟨1, _⟩ => ⟨S32x4096x64, .f32⟩
  | .hbm, ⟨2, _⟩ => ⟨S64x256, .f32⟩
  | .hbm, ⟨3, _⟩ => ⟨S_, .f32⟩
  | .hbm, ⟨4, _⟩ => ⟨S64, .f32⟩
  | .hbm, ⟨5, _⟩ => ⟨S64x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S64x256, .f32⟩
  | .hbm, ⟨10, _⟩ => ⟨S64x256, .f32⟩
  | .hbm, ⟨11, _⟩ => ⟨S64x256, .f32⟩
  | .hbm, ⟨12, _⟩ => ⟨S64x256, .f32⟩
  | .hbm, ⟨13, _⟩ => ⟨S1x64, .f32⟩
  | .hbm, ⟨14, _⟩ => ⟨S32x512x4096, .f32⟩
  | .local _ .vmem, ⟨0, _⟩ => ⟨S1x512x256, .f32⟩
  | .local _ .vmem, ⟨1, _⟩ => ⟨S1x512x256, .f32⟩
  | .local _ .vmem, ⟨2, _⟩ => ⟨S1x4096x64, .f32⟩
  | .local _ .vmem, ⟨3, _⟩ => ⟨S1x4096x64, .f32⟩
  | .local _ .vmem, ⟨4, _⟩ => ⟨S64x256, .f32⟩
  | .local _ .vmem, ⟨5, _⟩ => ⟨S1x64, .f32⟩
  | .local _ .vmem, ⟨6, _⟩ => ⟨S1x512x4096, .f32⟩
  | .local _ .vmem, ⟨7, _⟩ => ⟨S1x512x4096, .f32⟩
  | _, _ => ⟨S32x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S64x256_S_d0_1 : S64x256.ReducesTo [0, 1] S_
  h_S_ : 0 < S_.numel
  bcast_S_S64x256 : S_.BroadcastsInDim S64x256 (![] : Fin 0 → Fin S64x256.rank)
  shapeCasts_S64_S1x64 : S64.ShapeCasts S1x64
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x256_p1_0_S256x64 : S64x256.Transposes [1, 0] S256x64
  broadcasts_S1x64_S512x64 : S1x64.Broadcasts S512x64
  transposes_S4096x64_p1_0_S64x4096 : S4096x64.Transposes [1, 0] S64x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  dot_S512x256_S256x64_S512x64_1_0_0_1_n_n_wf : DotDims.WF S512x256 S256x64 S512x64 [1] [0] [0] [1] [] []
  dot_S512x64_S64x4096_S512x4096_1_0_0_1_n_n_wf : DotDims.WF S512x64 S64x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S32x512x256.size a
  hwx0_0 : ∀ i : grid0.Coords, EltTy.bits .f32 = 32 ∨ (Rect.block (s := S32x512x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S32x4096x64.size a
  hwx0_1 : ∀ i : grid0.Coords, EltTy.bits .f32 = 32 ∨ (Rect.block (s := S32x4096x64) S1x4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x4096.size a ≤ S32x512x4096.size a
  hwx0_4 : ∀ i : grid0.Coords, EltTy.bits .f32 = 32 ∨ (Rect.block (s := S32x512x4096) S1x512x4096.size (cc0_transform_4 i) (hinb0_4 i)).WholeWords (EltTy.packing .f32)

variable [Facts₀]

def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x256 : Shape := ⟨3, ![32, 512, 256]⟩
abbrev S32x4096x64 : Shape := ⟨3, ![32, 4096, 64]⟩
abbrev S64x256 : Shape := ⟨2, ![64, 256]⟩
abbrev S_ : Shape := ⟨0, ![]⟩
abbrev S64 : Shape := ⟨1, ![64]⟩
abbrev S32x512x64 : Shape := ⟨3, ![32, 512, 64]⟩
abbrev S1x1x64 : Shape := ⟨3, ![1, 1, 64]⟩
abbrev S32x512x4096 : Shape := ⟨3, ![32, 512, 4096]⟩

abbrev nBuf : Space → Nat
  | .hbm => 25
  | .vmem => 0
  | .smem => 0
  | _ => 0

abbrev bufTy : (tb : Table) → Fin (tcTables nBuf tb) → BufTy
  | .hbm, ⟨0, _⟩ => ⟨S32x512x256, .f32⟩
  | .hbm, ⟨1, _⟩ => ⟨S32x4096x64, .f32⟩
  | .hbm, ⟨2, _⟩ => ⟨S64x256, .f32⟩
  | .hbm, ⟨3, _⟩ => ⟨S_, .f32⟩
  | .hbm, ⟨4, _⟩ => ⟨S64, .f32⟩
  | .hbm, ⟨5, _⟩ => ⟨S64x256, .f32⟩
  | .hbm, ⟨6, _⟩ => ⟨S64x256, .f32⟩
  | .hbm, ⟨7, _⟩ => ⟨S64x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64x256, .f32⟩
  | .hbm, ⟨12, _⟩ => ⟨S64x256, .f32⟩
  | .hbm, ⟨13, _⟩ => ⟨S32x512x64, .f32⟩
  | .hbm, ⟨14, _⟩ => ⟨S1x1x64, .f32⟩
  | .hbm, ⟨15, _⟩ => ⟨S32x512x64, .f32⟩
  | .hbm, ⟨16, _⟩ => ⟨S32x512x64, .f32⟩
  | .hbm, ⟨17, _⟩ => ⟨S_, .f32⟩
  | .hbm, ⟨18, _⟩ => ⟨S32x512x64, .f32⟩
  | .hbm, ⟨19, _⟩ => ⟨S32x512x64, .f32⟩
  | .hbm, ⟨20, _⟩ => ⟨S_, .f32⟩
  | .hbm, ⟨21, _⟩ => ⟨S_, .f32⟩
  | .hbm, ⟨22, _⟩ => ⟨S32x512x4096, .f32⟩
  | .hbm, ⟨23, _⟩ => ⟨S32x512x4096, .f32⟩
  | .hbm, ⟨24, _⟩ => ⟨S32x512x4096, .f32⟩
  | _, _ => ⟨S32x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call1_cst : Ref sig .tc := ⟨.hbm, 17, rfl⟩
abbrev main_call1_v0 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S_S64x256 : S_.BroadcastsInDim S64x256 (![] : Fin 0 → Fin S64x256.rank)
  reducesTo_S64x256_S_d0_1 : S64x256.ReducesTo [0, 1] S_
  h_S_ : 0 < S_.numel
  bcast_S64_S1x1x64_2 : S64.BroadcastsInDim S1x1x64 (![2] : Fin 1 → Fin S1x1x64.rank)
  bcast_S1x1x64_S32x512x64_0_1_2 : S1x1x64.BroadcastsInDim S32x512x64 (![0, 1, 2] : Fin 3 → Fin S32x512x64.rank)
  bcast_S_S32x512x64 : S_.BroadcastsInDim S32x512x64 (![] : Fin 0 → Fin S32x512x64.rank)
  bcast_S_S32x512x4096 : S_.BroadcastsInDim S32x512x4096 (![] : Fin 0 → Fin S32x512x4096.rank)
  dot_S32x512x256_S64x256_S32x512x64_2_1_01_0_n_n_wf : DotDims.WF S32x512x256 S64x256 S32x512x64 [2] [1] [0, 1] [0] [] []
  dot_S32x512x64_S32x4096x64_S32x512x4096_2_2_1_1_0_0_wf : DotDims.WF S32x512x64 S32x4096x64 S32x512x4096 [2] [2] [1] [1] [0] [0]

variable [Facts₀]

def dot_S32x512x256_S64x256_S32x512x64_2_1_01_0_n_n : DotDims S32x512x256 S64x256 S32x512x64 where
  lhsContracting := [2]
  rhsContracting := [1]
  lhsNonContracting := [0, 1]
  rhsNonContracting := [0]
  lhsBatch := []
  rhsBatch := []
  wf := dot_S32x512x256_S64x256_S32x512x64_2_1_01_0_n_n_wf
def dot_S32x512x64_S32x4096x64_S32x512x4096_2_2_1_1_0_0 : DotDims S32x512x64 S32x4096x64 S32x512x4096 where
  lhsContracting := [2]
  rhsContracting := [2]
  lhsNonContracting := [1]
  rhsNonContracting := [1]
  lhsBatch := [0]
  rhsBatch := [0]
  wf := dot_S32x512x64_S32x4096x64_S32x512x4096_2_2_1_1_0_0_wf

class Facts : Prop extends Facts₀ where

variable [Facts]
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.KernelBody.lean ====
/-
  What the kernel's body computes at one entry of its output block.

  At a grid point the body holds one batch's slices: the input rows `xb` (a [1,512,256] block), the map rows
  `mb` ([1,4096,64]), the whole weight matrix `w` ([64,256]) and the bias as one row `βr` ([1,64]). It drops
  the unit axes, multiplies the rows by the transposed weights (a plain 512×256 by 256×64 product into zero), adds
  the bias row to every row, takes the maximum with zero, multiplies by the transposed map (512×64 by 64×4096
  into zero), scales by 0.125 and puts the unit axis back. The changes of float format are the identity on
  the extended reals. So entry (·, u, s) of the stored block is

      ( ∑ k < 64, max( ∑ d < 256, xb[0,u,d] · w[k,d] + βr[0,k], 0 ) · mb[0,s,k] ) · 0.125.
-/
import proofs.«170346_j62130996904140_1_alg».proof.Proof.Gen.KernelIdeal.Skeleton
import proofs.«170346_j62130996904140_1_alg».proof.Proof.LibPlainProduct
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The printed record of the first product is the plain 512×256 by 256×64 one. -/
theorem dims_proj : dot_S512x256_S256x64_S512x64_1_0_0_1_n_n = DotDims.plain 512 256 64 := rfl

/-- The printed record of the second product is the plain 512×64 by 64×4096 one. -/
theorem dims_pair : dot_S512x64_S64x4096_S512x4096_1_0_0_1_n_n = DotDims.plain 512 64 4096 := rfl

/-- The first product at (u, k): the row u of the block against row k of the weights. -/
theorem proj_apply (xb : FVec Ideal S1x512x256 .f32) (w : FVec Ideal S64x256 .f32) (u : Fin 512) (k : Fin 64) :
    matmul (F := Ideal) dot_S512x256_S256x64_S512x64_1_0_0_1_n_n none
        (truncf .bf16 (shapeCast S512x256 xb Facts₀.shapeCasts_S1x512x256_S512x256) Facts₀.bitsLt_bf16_f32)
        (transpose S256x64 [1, 0] (truncf .bf16 (shapeCast S64x256 w Facts₀.shapeCasts_S64x256_S64x256) Facts₀.bitsLt_bf16_f32)
          Facts₀.transposes_S64x256_p1_0_S256x64)
        (constant (F := Ideal) S512x64 .f32 0x00000000#32) (ix2 u k)
      = ∑ d : Fin 256, xb (ix3 (0 : Fin 1) u d) * w (ix2 k d) := by
  rw [dims_proj]
  refine (Cert.LibPlainProduct.matmul_zero_plain_apply _ _ none u k).trans ?_
  refine Finset.sum_congr rfl fun d _ => ?_
  rw [truncf_apply, shapeCast_1ab_ab_apply, transpose_ix2_apply, truncf_apply, shapeCast_self]

/-- The stored block at (·, u, s). -/
theorem pay_apply (xb : FVec Ideal S1x512x256 .f32) (w : FVec Ideal S64x256 .f32) (mb : FVec Ideal S1x4096x64 .f32)
    (βr : FVec Ideal S1x64 .f32) (z : Fin 1) (u : Fin 512) (s : Fin 4096) :
    k0_pay1 (F := Ideal) xb w mb βr (ix3 z u s)
      = (∑ k : Fin 64, max ((∑ d : Fin 256, xb (ix3 (0 : Fin 1) u d) * w (ix2 k d)) + βr (ix2 (0 : Fin 1) k))
            (Ideal.ofBits .f32 0x00000000#32) * mb (ix3 (0 : Fin 1) s k)) * Ideal.ofBits .f32 0x3E000000#32 := by
  unfold k0_pay1
  dsimp only
  rw [shapeCast_ab_1ab_apply, mulf_apply, broadcast_apply, dims_pair]
  refine congrArg (· * _) ((Cert.LibPlainProduct.matmul_zero_plain_apply _ _ none u s).trans ?_)
  refine Finset.sum_congr rfl fun k _ => ?_
  rw [truncf_apply, maximumf_apply, addf_apply, broadcast_apply, proj_apply, broadcastTo_1b_ab_apply, shapeCast_self,
    transpose_ix2_apply, truncf_apply, shapeCast_1ab_ab_apply]
  rfl

end Cert.KernelIdeal.Body

end
-- ==== Proof.Logit.lean ====
/-
  The function both programs compute, and the one numerical fact that joins their last steps.

  For a batch `b`, a query row `u` and a map position `s`, the score is

      ( ∑ k < 64,  max( ∑ d < 256, x[b,u,d] · w[k,d]  +  β[k] , 0 ) · mp[b,s,k] )  ·  1/8

  on the extended reals: a weight matrix `w` applied to the row `x[b,u,·]`, a bias added, the negative part
  cut off, the result paired with the map row `mp[b,s,·]`, and the pairing scaled. The weight matrix is left
  as a parameter here: both programs build it from the same two inputs by the same operations, so it never
  needs to be opened.

  The kernel scales by the constant 0.125; the reference divides by the square root of 64. Since
  √64 = 8 and 8 ≠ 0, dividing any extended real by it is multiplying by 1/8 = 0.125, infinities included
  (`scale_eq`). No other law is needed: the two sums run over the same index sets in the same order.
-/
import Idealize.ShloMosaic.PureOps.Ideal
import Idealize.ShloMosaic.PureOps.Ideal.Laws
import Idealize.ShloMosaic.Lib.ValueIdx

noncomputable section

open scoped BigOperators

namespace Cert.Logit

open Idealize.ShloMosaic Idealize.ShloMosaic.ValueIdx

/-- The projected, biased and rectified feature `k` of row `u` of batch `b`. -/
def feature (x : FVec Ideal ⟨3, ![32, 512, 256]⟩ .f32) (w : FVec Ideal ⟨2, ![64, 256]⟩ .f32)
    (β : FVec Ideal ⟨1, ![64]⟩ .f32) (b : Fin 32) (u : Fin 512) (k : Fin 64) : EReal :=
  max ((∑ d : Fin 256, x (ix3 b u d) * w (ix2 k d)) + β (ix1 k)) (Ideal.ofBits .f32 0x00000000#32)

/-- The unscaled score of row `u` against map position `s` in batch `b`. -/
def pairing (x : FVec Ideal ⟨3, ![32, 512, 256]⟩ .f32) (mp : FVec Ideal ⟨3, ![32, 4096, 64]⟩ .f32)
    (w : FVec Ideal ⟨2, ![64, 256]⟩ .f32) (β : FVec Ideal ⟨1, ![64]⟩ .f32) (b : Fin 32) (u : Fin 512) (s : Fin 4096) : EReal :=
  ∑ k : Fin 64, feature x w β b u k * mp (ix3 b s k)

/-- The whole result array: the pairing scaled by 0.125. -/
def logit (x : FVec Ideal ⟨3, ![32, 512, 256]⟩ .f32) (mp : FVec Ideal ⟨3, ![32, 4096, 64]⟩ .f32)
    (w : FVec Ideal ⟨2, ![64, 256]⟩ .f32) (β : FVec Ideal ⟨1, ![64]⟩ .f32) : FVec Ideal ⟨3, ![32, 512, 4096]⟩ .f32 :=
  fun i => pairing x mp w β (i 0) (i 1) (i 2) * Ideal.ofBits .f32 0x3E000000#32

/-- The word 0x3E000000 is the real number 1/8. -/
theorem ofBits_eighth : Ideal.ofBits .f32 0x3E000000#32 = ((1 / 8 : ℝ) : EReal) := by
  simp [Ideal.ofBits, Ideal.ieee, -EReal.coe_mul]; norm_num

/-- The word 0x42800000 is the real number 64. -/
theorem ofBits_sixtyfour : Ideal.ofBits .f32 0x42800000#32 = ((64 : ℝ) : EReal) := by
  simp [Ideal.ofBits, Ideal.ieee, -EReal.coe_mul]; norm_num

/-- The square root of 64 is 8. -/
theorem sqrt_sixtyfour : Ideal.sqrt ((64 : ℝ) : EReal) = ((8 : ℝ) : EReal) := by
  rw [Ideal.sqrt_coe, if_neg (by norm_num)]
  congr 1
  rw [show (64 : ℝ) = 8 * 8 by norm_num]
  exact Real.sqrt_mul_self (by norm_num)

/-- Dividing by √64 is multiplying by 0.125, on every extended real. -/
theorem scale_eq (y : EReal) :
    Ideal.div y (Ideal.sqrt (Ideal.ofBits .f32 0x42800000#32)) = y * Ideal.ofBits .f32 0x3E000000#32 := by
  rw [ofBits_sixtyfour, sqrt_sixtyfour, ofBits_eighth, Ideal.div_coe (by norm_num : (8 : ℝ) ≠ 0)]

end Cert.Logit

end
-- ==== Proof.KernelWhole.lean ====
/-
  From the kernel's blocks to its whole result array.

  The grid has one point per batch. At point t every window's block is one slice along the batch axis:
  rows (t, ·, ·) of the input, of the map and of the result; the weight matrix and the bias row are fetched
  whole. So entry (·, u, d) of the input block is entry (t, u, d) of the input array, and likewise for the
  others. Putting this into the body's value at (·, u, s) gives the score function at (t, u, s): what point t
  writes back is block t of the score function of the arrays as the region finds them. The 32 blocks tile the
  result array (the point covering index (b, u, s) is b), so after the run the array is the score function.

  The arrays the region finds: the two large inputs are untouched; the weight matrix is what the host
  operations before the region computed from the scalar gain and the raw weights (`weight`); the bias row is the
  bias vector with a unit axis in front.
-/
import proofs.«170346_j62130996904140_1_alg».proof.Proof.Gen.KernelIdeal.Value
import proofs.«170346_j62130996904140_1_alg».proof.Proof.KernelBody
import proofs.«170346_j62130996904140_1_alg».proof.Proof.Logit
import Idealize.ShloMosaic.Lib.StableHlo.Run

set_option maxRecDepth 16384

noncomputable section

open scoped BigOperators

namespace Cert.KernelIdeal.Whole

open Cert.KernelIdeal Cert.KernelIdeal.Gen Cert.KernelIdeal.Value Idealize.ShloMosaic Idealize.ShloMosaic.TcCoe
open Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays as the region finds them, at their literal types -/

abbrev xarr (c : Dev nD) : FVec Ideal S32x512x256 .f32 := V m c main_arg0
abbrev marr (c : Dev nD) : FVec Ideal S32x4096x64 .f32 := V m c main_arg1
abbrev warr (c : Dev nD) : FVec Ideal S64x256 .f32 := V m c main_v4
abbrev brow (c : Dev nD) : FVec Ideal S1x64 .f32 := V m c main_v5
/-- The bias row without its unit axis. -/
def bvec (c : Dev nD) : FVec Ideal S64 .f32 := fun j => brow m c (ix2 (0 : Fin 1) (j 0))

/-- The score function of the arrays as the region finds them. -/
def target (c : Dev nD) : FVec Ideal S32x512x4096 .f32 :=
  Cert.Logit.logit (xarr m c) (marr m c) (warr m c) (bvec m c)

/-! ## Where each block sits -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the 32 points: the batch axis follows the point, every other block index is 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- A grid point as a batch number. -/
def batch (t : Fin cfg0.N) : Fin 32 := ⟨t.val, lt_of_lt_of_eq t.isLt N_0⟩

theorem emb_x (t : Fin cfg0.N) (u : Fin 512) (d : Fin 256) :
    ((cfg0.win 0).blk t).view.emb (ix3 (0 : Fin 1) u d) = ix3 (batch t) u d := by
  obtain ⟨e0, e1, e2, -⟩ := idx_facts t
  funext a; apply Fin.ext
  match a with
  | ⟨0, _⟩ => show win0_0.index t (0 : Fin 3) * 1 + 1 * 0 = t.val; omega
  | ⟨1, _⟩ => show win0_0.index t (1 : Fin 3) * 512 + 1 * u.val = u.val; omega
  | ⟨2, _⟩ => show win0_0.index t (2 : Fin 3) * 256 + 1 * d.val = d.val; omega

theorem emb_m (t : Fin cfg0.N) (s : Fin 4096) (k : Fin 64) :
    ((cfg0.win 1).blk t).view.emb (ix3 (0 : Fin 1) s k) = ix3 (batch t) s k := by
  obtain ⟨-, -, -, e0, e1, e2, -⟩ := idx_facts t
  funext a; apply Fin.ext
  match a with
  | ⟨0, _⟩ => show win0_1.index t (0 : Fin 3) * 1 + 1 * 0 = t.val; omega
  | ⟨1, _⟩ => show win0_1.index t (1 : Fin 3) * 4096 + 1 * s.val = s.val; omega
  | ⟨2, _⟩ => show win0_1.index t (2 : Fin 3) * 64 + 1 * k.val = k.val; omega

theorem emb_w (t : Fin cfg0.N) (k : Fin 64) (d : Fin 256) :
    ((cfg0.win 2).blk t).view.emb (ix2 k d) = ix2 k d := by
  obtain ⟨-, -, -, -, -, -, e0, e1, -⟩ := idx_facts t
  funext a; apply Fin.ext
  match a with
  | ⟨0, _⟩ => show win0_2.index t (0 : Fin 2) * 64 + 1 * k.val = k.val; omega
  | ⟨1, _⟩ => show win0_2.index t (1 : Fin 2) * 256 + 1 * d.val = d.val; omega

theorem emb_b (t : Fin cfg0.N) (k : Fin 64) :
    ((cfg0.win 3).blk t).view.emb (ix2 (0 : Fin 1) k) = ix2 (0 : Fin 1) k := by
  obtain ⟨-, -, -, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 64 + 1 * k.val = k.val; omega

theorem emb_o (t : Fin cfg0.N) (z : Fin 1) (u : Fin 512) (s : Fin 4096) :
    ((cfg0.win 4).blk t).view.emb (ix3 z u s) = ix3 (batch t) u s := by
  obtain ⟨-, -, -, -, -, -, -, -, -, -, e0, e1, e2⟩ := idx_facts t
  have hz : z.val = 0 := by omega
  funext a; apply Fin.ext
  match a with
  | ⟨0, _⟩ => show win0_4.index t (0 : Fin 3) * 1 + 1 * z.val = t.val; omega
  | ⟨1, _⟩ => show win0_4.index t (1 : Fin 3) * 512 + 1 * u.val = u.val; omega
  | ⟨2, _⟩ => show win0_4.index t (2 : Fin 3) * 4096 + 1 * s.val = s.val; omega

/-! ## What a point writes back -/

/-- Point t writes back block t of the score function. -/
theorem flushed_eq (c : Dev nD) (t : Fin cfg0.N) :
    (dats m 0 c).flushed 4 t = ((cfg0.win 4).blk t).view.read (Elt Ideal) (target m c) := by
  rw [flushed4]
  unfold out0_4
  rw [View.canon_unit_zero zeros3]
  simp only [View.ld_unit_zero (S := S1x512x256) zeros3, View.ld_unit_zero (S := S64x256) zeros2,
    View.ld_unit_zero (S := S1x4096x64) zeros3, View.ld_unit_zero (S := S1x64) zeros2]
  funext j
  obtain ⟨z, u, s, rfl⟩ : ∃ (z : Fin 1) (u : Fin 512) (s : Fin 4096), j = ix3 z u s := ⟨j 0, j 1, j 2, eq_ix3 j⟩
  show k0_pay1 (F := Ideal) (iblk m c 0 t) (iblk m c 2 t) (iblk m c 1 t) (iblk m c 3 t) (ix3 z u s)
    = target m c (((cfg0.win 4).blk t).view.emb (ix3 z u s))
  refine (Cert.KernelIdeal.Body.pay_apply (iblk m c 0 t) (iblk m c 2 t) (iblk m c 1 t) (iblk m c 3 t) z u s).trans ?_
  rw [emb_o]
  show _ = Cert.Logit.pairing (xarr m c) (marr m c) (warr m c) (bvec m c) (batch t) u s * _
  unfold Cert.Logit.pairing Cert.Logit.feature
  refine congrArg (· * _) (Finset.sum_congr rfl fun k _ => ?_)
  have hb : iblk m c 3 t (ix2 (0 : Fin 1) k) = bvec m c (ix1 k) := by
    show brow m c (((cfg0.win 3).blk t).view.emb (ix2 (0 : Fin 1) k)) = brow m c (ix2 (0 : Fin 1) k)
    rw [emb_b]
  have hm : iblk m c 1 t (ix3 (0 : Fin 1) s k) = marr m c (ix3 (batch t) s k) := by
    show marr m c (((cfg0.win 1).blk t).view.emb (ix3 (0 : Fin 1) s k)) = _
    rw [emb_m]
  have hx : ∀ d : Fin 256, iblk m c 0 t (ix3 (0 : Fin 1) u d) = xarr m c (ix3 (batch t) u d) := fun d => by
    show xarr m c (((cfg0.win 0).blk t).view.emb (ix3 (0 : Fin 1) u d)) = _
    rw [emb_x]
  have hw : ∀ d : Fin 256, iblk m c 2 t (ix2 k d) = warr m c (ix2 k d) := fun d => by
    show warr m c (((cfg0.win 2).blk t).view.emb (ix2 k d)) = _
    rw [emb_w]
  rw [hb, hm]
  simp only [hx, hw]

/-! ## The blocks tile the result array -/

/-- An index is in point t's block iff each coordinate is in the block's range on its axis. -/
theorem mem_blk (t : Fin cfg0.N) (i : S32x512x4096.Idx) :
    i ∈ ((cfg0.win 4).blk t).view.set ↔ ∀ a : Fin 3, win0_4.index t a * S1x512x4096.size a ≤ (i a).val
      ∧ (i a).val < win0_4.index t a * S1x512x4096.size a + S1x512x4096.size a := by
  show i ∈ ((View.whole main_v6).slice (win0_4.rect t)).set ↔ _
  rw [View.set_slice_whole, Rect.mem_set_unit]
  exact Iff.rfl

/-- Index (b, u, s) is in the block of point b. -/
theorem cover (i : S32x512x4096.Idx) :
    ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 4096 := (i 2).isLt
  have ht : (i 0).val < cfg0.N := lt_of_lt_of_eq h0 N_0.symm
  obtain ⟨-, -, -, -, -, -, -, -, -, -, e0', e1, e2⟩ := idx_facts ⟨(i 0).val, ht⟩
  have e0 : win0_4.index ⟨(i 0).val, ht⟩ (0 : Fin 3) = (i 0).val := e0'
  refine ⟨⟨(i 0).val, ht⟩, flush0_4 _, ?_⟩
  rw [mem_blk]
  intro a
  match a with
  | ⟨0, _⟩ =>
    show win0_4.index ⟨(i 0).val, ht⟩ (0 : Fin 3) * 1 ≤ (i 0).val ∧ (i 0).val < win0_4.index ⟨(i 0).val, ht⟩ (0 : Fin 3) * 1 + 1
    rw [e0]; omega
  | ⟨1, _⟩ =>
    show win0_4.index ⟨(i 0).val, ht⟩ (1 : Fin 3) * 512 ≤ (i 1).val ∧ (i 1).val < win0_4.index ⟨(i 0).val, ht⟩ (1 : Fin 3) * 512 + 512
    rw [e1]; omega
  | ⟨2, _⟩ =>
    show win0_4.index ⟨(i 0).val, ht⟩ (2 : Fin 3) * 4096 ≤ (i 2).val ∧ (i 2).val < win0_4.index ⟨(i 0).val, ht⟩ (2 : Fin 3) * 4096 + 4096
    rw [e2]; omega

/-- After the run the result array is the score function of the arrays as the region finds them. -/
theorem final (c : Dev nD) : (dats m 0 c).arrAt 4 cfg0.N = target m c :=
  (dats m 0 c).arrAt_eq_of_cover 4 (target m c) (fun t _ => flushed_eq m c t) cover

/-! ## The arrays the host operations prepared -/

/-- The weight matrix the host operations build from the raw weights and the scalar gain: the gain times the raw
    weights, divided entry by entry by the square root of the sum of the raw weights' squares. -/
def weight (vw : FVec Ideal S64x256 .f32) (g : FVec Ideal S_ .f32) : FVec Ideal S64x256 .f32 :=
  Host.divf (mulf (broadcastInDim S64x256 ![] Facts₀.bcast_S_S64x256 g) vw)
    (broadcastInDim S64x256 ![] Facts₀.bcast_S_S64x256 (Host.sqrt (Host.reduceAdd (mulf vw vw)
      (constant (F := Ideal) S_ .f32 0x00000000#32) Facts₀.reducesTo_S64x256_S_d0_1 Facts₀.h_S_)))

theorem warr_eq (c : Dev nD) :
    warr m c = weight (m ((c : Thread nD τ).loc main_arg2)) (m ((c : Thread nD τ).loc main_arg3)) := by
  show (V m c main_v4 : FVec Ideal S64x256 .f32) = _
  dsimp only [V]
  simp only [hostOps0, hostOps0_1, List.flatten_cons, List.flatten_nil, List.append_nil, List.cons_append,
    List.nil_append]
  after_results
  rfl

theorem brow_eq (c : Dev nD) :
    brow m c = shapeCast S1x64 (m ((c : Thread nD τ).loc main_arg4)) Facts₀.shapeCasts_S64_S1x64 := by
  show (V m c main_v5 : FVec Ideal S1x64 .f32) = _
  dsimp only [V]
  simp only [hostOps0, hostOps0_1, List.flatten_cons, List.flatten_nil, List.append_nil, List.cons_append,
    List.nil_append]
  after_results
  rfl

/-- The bias row without its unit axis is the bias vector. -/
theorem bvec_eq (c : Dev nD) : bvec m c = m ((c : Thread nD τ).loc main_arg4) := by
  funext j
  obtain ⟨k, rfl⟩ : ∃ k : Fin 64, j = ix1 k := ⟨j 0, eq_ix1 j⟩
  show brow m c (ix2 (0 : Fin 1) k) = _
  rw [brow_eq, shapeCast_a_1a_apply]

/-- The score function of the arrays as the region finds them is the score function of the program's inputs. -/
theorem target_eq (c : Dev nD) :
    target m c = Cert.Logit.logit (m ((c : Thread nD τ).loc main_arg0)) (m ((c : Thread nD τ).loc main_arg1))
      (weight (m ((c : Thread nD τ).loc main_arg2)) (m ((c : Thread nD τ).loc main_arg3))) (m ((c : Thread nD τ).loc main_arg4)) := by
  unfold target
  rw [bvec_eq, warr_eq]
  show Cert.Logit.logit (V m c main_arg0) (V m c main_arg1) _ _ = _
  rw [V_main_arg0, V_main_arg1]

/-! ## The run -/

/-- Every weakly fair execution of the kernel's program ends with the result array at the score function of the inputs,
    the inputs unchanged. -/
theorem run : θ_run defs (onTc (τ := τ) (main (F := Ideal))) ⟨m, fun _ => 0, ρ⟩ fun r => ∀ c : Dev nD,
      r.2.mem ((c : Thread nD τ).loc main_v6) = Cert.Logit.logit (m ((c : Thread nD τ).loc main_arg0)) (m ((c : Thread nD τ).loc main_arg1))
        (weight (m ((c : Thread nD τ).loc main_arg2)) (m ((c : Thread nD τ).loc main_arg3))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (target_eq m c)), (h c).2⟩) (run_blocks m ρ)

end Cert.KernelIdeal.Whole

end
-- ==== Proof.RefSide.lean ====
/-
  The reference computes the score function.

  Reading the reference one operation at a time: its last step divides, entry by entry, the batched product
  of the rectified features with the map by the square root of 64; the batched product at (b, u, s) is the sum
  over k of the feature (b, u, k) times the map entry (b, s, k); the feature is the maximum with zero of the
  first product, the sum over d of x[b,u,d] · w[k,d], plus the bias entry k (the bias reaches every row
  through two broadcasts that only repeat it). That is the score function's definition, with the division
  by √64 written as the scaling by 0.125.
-/
import proofs.«170346_j62130996904140_1_alg».proof.Proof.Gen.ReferenceIdeal.Read
import proofs.«170346_j62130996904140_1_alg».proof.Proof.Logit

noncomputable section

open scoped BigOperators

namespace Cert.ReferenceIdeal.RefValue

open Cert.ReferenceIdeal Cert.ReferenceIdeal.Read Idealize.ShloMosaic Idealize.ShloMosaic.ValueIdx

/-- The batched product reads the features at (b, u, k) … -/
theorem pair_left (b : Fin 32) (u : Fin 512) (s : Fin 4096) (k : Fin 64) : lidx_main_v11 (ix3 b u s) k = ix3 b u k :=
  funext fun a => Fin.ext (by match a with | ⟨0, _⟩ => rfl | ⟨1, _⟩ => rfl | ⟨2, _⟩ => rfl)

/-- … and the map at (b, s, k). -/
theorem pair_right (b : Fin 32) (u : Fin 512) (s : Fin 4096) (k : Fin 64) : ridx_main_v11 (ix3 b u s) k = ix3 b s k :=
  funext fun a => Fin.ext (by match a with | ⟨0, _⟩ => rfl | ⟨1, _⟩ => rfl | ⟨2, _⟩ => rfl)

/-- The first product reads the input row at (b, u, d) … -/
theorem proj_left (b : Fin 32) (u : Fin 512) (k : Fin 64) (d : Fin 256) : lidx_main_v5 (ix3 b u k) d = ix3 b u d :=
  funext fun a => Fin.ext (by match a with | ⟨0, _⟩ => rfl | ⟨1, _⟩ => rfl | ⟨2, _⟩ => rfl)

/-- … and the weight at (k, d). -/
theorem proj_right (b : Fin 32) (u : Fin 512) (k : Fin 64) (d : Fin 256) : ridx_main_v5 (ix3 b u k) d = ix2 k d :=
  funext fun a => Fin.ext (by match a with | ⟨0, _⟩ => rfl | ⟨1, _⟩ => rfl)

/-- The two broadcasts of the bias read its entry k. -/
theorem bias_at (b : Fin 32) (u : Fin 512) (k : Fin 64) : idx_main_v6 (idx_main_v7 (ix3 b u k)) = ix1 k :=
  funext fun a => Fin.ext (by match a with | ⟨0, _⟩ => rfl)

/-- The reference's rectified feature at (b, u, k) is the score function's. -/
theorem feature_eq (x0 : FVec Ideal S32x512x256 .f32) (x2 : FVec Ideal S64x256 .f32) (x3 : FVec Ideal S_ .f32)
    (x4 : FVec Ideal S64 .f32) (b : Fin 32) (u : Fin 512) (k : Fin 64) :
    val_main_v9 (F := Ideal) x0 x2 x3 x4 (ix3 b u k)
      = Cert.Logit.feature x0 (val_main_v4 (F := Ideal) x2 x3) x4 b u k := by
  rw [val_main_v9_apply, val_main_v8_apply, val_main_v5_apply, val_main_v7_apply, val_main_v6_apply,
    val_main_call1_v0_apply, val_main_call1_cst_apply]
  simp only [proj_left, proj_right, bias_at, Ideal.maximumf_def, Ideal.addf_def, Ideal.ofBits_def]
  rfl

/-- The reference's result array is the score function of its inputs and of the weight matrix it builds. -/
theorem result_eq (x0 : FVec Ideal S32x512x256 .f32) (x1 : FVec Ideal S32x4096x64 .f32) (x2 : FVec Ideal S64x256 .f32)
    (x3 : FVec Ideal S_ .f32) (x4 : FVec Ideal S64 .f32) :
    val_main_v13 (F := Ideal) x0 x1 x2 x3 x4 = Cert.Logit.logit x0 x1 (val_main_v4 (F := Ideal) x2 x3) x4 := by
  funext i
  obtain ⟨b, u, s, rfl⟩ : ∃ (b : Fin 32) (u : Fin 512) (s : Fin 4096), i = ix3 b u s := ⟨i 0, i 1, i 2, eq_ix3 i⟩
  rw [val_main_v13_apply, val_main_v11_apply, val_main_v12_apply, val_main_v10_apply, val_main_cst_apply]
  simp only [Ideal.hostDivf_def, Ideal.hostUnary_sqrt_def, Ideal.ofBits_def]
  rw [Cert.Logit.scale_eq]
  show _ = Cert.Logit.pairing x0 x1 (val_main_v4 (F := Ideal) x2 x3) x4 b u s * _
  unfold Cert.Logit.pairing
  congr 1
  refine Finset.sum_congr rfl fun k _ => ?_
  rw [pair_left, pair_right, feature_eq]

end Cert.ReferenceIdeal.RefValue

end
-- ==== Proof.lean ====
/-
  The kernel and its reference compute one function.

  Both programs take a batch of query rows x [32,512,256], a batch of map rows mp [32,4096,64], raw weights
  [64,256], a scalar gain and a bias [64]. Both first build the weight matrix w = gain · raw / ‖raw‖ (the
  Frobenius norm) by the same host operations, then compute, for batch b, row u and map position s,

      ( ∑ k < 64, max( ∑ d < 256, x[b,u,d] · w[k,d] + bias[k], 0 ) · mp[b,s,k] ) scaled by 1/√64.

  The kernel does it one batch per grid point, with two matrix products into zero accumulators on blocks whose
  unit axes are dropped and whose right operands are transposed, and multiplies by the constant 0.125; its
  changes of float format are the identity on the extended reals. The reference does it with two contractions
  over whole arrays and divides by √64. On the extended reals the sums are the same sums, and division by
  √64 = 8 is multiplication by 1/8 = 0.125 for every value, infinite ones included; the weight matrix is never
  opened, so a zero norm needs no separate treatment. No finiteness of the inputs is used.

  The kernel's run (each block is a slice of the score function; the blocks tile the result) is in
  Proof/KernelWhole.lean over the body's value at an entry (Proof/KernelBody.lean); the reference's run read
  operation by operation is in Proof/RefSide.lean; the score function and the numerical fact are in
  Proof/Logit.lean. The three frame claims are the programs' runs with the results dropped; the kernel's
  idealization rewrote no operation, so there is nothing to preserve.
-/
import proofs.«170346_j62130996904140_1_alg».proof.Defs
import proofs.«170346_j62130996904140_1_alg».proof.Proof.Gen.Kernel
import proofs.«170346_j62130996904140_1_alg».proof.Proof.Gen.Kernel.Skeleton
import proofs.«170346_j62130996904140_1_alg».proof.Proof.Gen.Kernel.Launch
import proofs.«170346_j62130996904140_1_alg».proof.Proof.Gen.Kernel.Points
import proofs.«170346_j62130996904140_1_alg».proof.Proof.Gen.Kernel.Frame
import proofs.«170346_j62130996904140_1_alg».proof.Proof.Gen.KernelIdeal
import proofs.«170346_j62130996904140_1_alg».proof.Proof.Gen.KernelIdeal.Skeleton
import proofs.«170346_j62130996904140_1_alg».proof.Proof.Gen.KernelIdeal.Launch
import proofs.«170346_j62130996904140_1_alg».proof.Proof.Gen.KernelIdeal.Points
import proofs.«170346_j62130996904140_1_alg».proof.Proof.Gen.KernelIdeal.Frame
import proofs.«170346_j62130996904140_1_alg».proof.Proof.Gen.ReferenceIdeal
import proofs.«170346_j62130996904140_1_alg».proof.Proof.Gen.Pre_finite_inputs
import proofs.«170346_j62130996904140_1_alg».proof.Proof.Gen.KernelIdeal.Value
import proofs.«170346_j62130996904140_1_alg».proof.Proof.Gen.ReferenceIdeal.Run
import proofs.«170346_j62130996904140_1_alg».proof.Proof.Gen.ReferenceIdeal.Read
import proofs.«170346_j62130996904140_1_alg».proof.Proof.KernelWhole
import proofs.«170346_j62130996904140_1_alg».proof.Proof.RefSide
import Idealize.ShloMosaic.Adequacy
import Idealize.ShloMosaic.Init

noncomputable section

namespace Cert.Proof

open Idealize.ShloMosaic Idealize.ShloMosaic.TcCoe Idealize.SL.Sem

/-- The weight matrix as the kernel's host operations build it is the reference's: the same operations of the
    same two inputs. -/
theorem weight_eq (vw : FVec Ideal Cert.KernelIdeal.S64x256 .f32) (g : FVec Ideal Cert.KernelIdeal.S_ .f32) :
    Cert.KernelIdeal.Whole.weight vw g = Cert.ReferenceIdeal.Read.val_main_v4 (F := Ideal) vw g := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the score function of the inputs, which agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2.1, (hagree c).2.2.2.2, weight_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
